-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : IVec S4096x4096 32) (main_arg2 : FVec F S4096 .f32) (main_arg3 : FVec F S4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S1024x1024 : Shape := ⟨2, ![1024, 1024]⟩
abbrev S512x1024 : Shape := ⟨2, ![512, 1024]⟩
abbrev S512x1 : Shape := ⟨2, ![512, 1]⟩
abbrev S1x512 : Shape := ⟨2, ![1, 512]⟩
abbrev S1024x512 : Shape := ⟨2, ![1024, 512]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S1x4096, .f32⟩
  | .hbm, ⟨8, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S4096x1 : S4096.ShapeCasts S4096x1
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x1, .f32⟩
  | .hbm, ⟨7, _⟩ => ⟨S4096x4096, .f32⟩
  | .hbm, ⟨8, _⟩ => ⟨S4096x4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The quantized linear layer as ONE function of its five argument arrays, over the extended reals, and the one
  law of finite sums that joins the kernel's arrangement of it to the reference's.

  With x : [8192, 4096] (activations), q : [4096, 4096] (integer weights, row n = output feature n), s, z, b : [4096]
  (per-output-feature scale, zero point and bias), entry (r, n) of the result is

      ( ∑ k < 4096,  x[r, k] · ((q[n, k] - z[n]) · s[n]) )  +  b[n]

  where q[n, k] is read as the real number the signed integer denotes. The reference computes exactly this sum. The
  kernel walks the contraction axis in 4 chunks of 1024, starting from zero and adding one chunk's partial sum per
  step, and adds the bias after the last chunk; so all that separates the two is cutting a sum over 4096 indices into
  4 consecutive sums over 1024 indices — a re-indexing in a commutative additive monoid, true of the extended reals
  with no finiteness assumption.
-/
import Idealize.ShloMosaic.PureOps.Ideal
import Idealize.ShloMosaic.Lib.ValueIdx
import Mathlib.Algebra.BigOperators.Fin
import Mathlib.Logic.Equiv.Fin.Basic

noncomputable section

namespace Cert.QLinear

open Idealize.ShloMosaic Idealize.ShloMosaic.ValueIdx

/-- The dequantized weight at (n, k): `(q[n, k] - z[n]) · s[n]`, the integer read as the real it denotes. -/
def deq (q : (⟨2, ![4096, 4096]⟩ : Shape).Idx → BitVec 32) (s z : (⟨1, ![4096]⟩ : Shape).Idx → EReal)
    (n k : Fin 4096) : EReal :=
  ((((q (ix2 n k)).toInt : ℝ) : EReal) - z (ix1 n)) * s (ix1 n)

/-- One term of the contraction at output entry (r, n): `x[r, k] · deq[n, k]`. -/
def term (x : (⟨2, ![8192, 4096]⟩ : Shape).Idx → EReal) (q : (⟨2, ![4096, 4096]⟩ : Shape).Idx → BitVec 32)
    (s z : (⟨1, ![4096]⟩ : Shape).Idx → EReal) (r : Fin 8192) (n k : Fin 4096) : EReal :=
  x (ix2 r k) * deq q s z n k

/-- The layer's result: entry (r, n) is the whole contraction over k plus the bias of output feature n. -/
def layer (x : (⟨2, ![8192, 4096]⟩ : Shape).Idx → EReal) (q : (⟨2, ![4096, 4096]⟩ : Shape).Idx → BitVec 32)
    (s z b : (⟨1, ![4096]⟩ : Shape).Idx → EReal) : (⟨2, ![8192, 4096]⟩ : Shape).Idx → EReal :=
  fun j => (∑ k : Fin 4096, term x q s z (j 0) (j 1) k) + b (ix1 (j 1))

/-- A sum over `a · b` consecutive indices is the sum, over `a` consecutive chunks, of each chunk's `b` terms. -/
theorem sum_chunks {M : Type*} [AddCommMonoid M] (a b : ℕ) (g : ℕ → M) :
    ∑ k : Fin (a * b), g k.val = ∑ c ∈ Finset.range a, ∑ e : Fin b, g (b * c + e.val) := by
  rw [← Fin.sum_univ_eq_sum_range (fun c => ∑ e : Fin b, g (b * c + e.val)) a,
    ← Equiv.sum_comp (finProdFinEquiv (m := a) (n := b)) (fun k => g k.val), Fintype.sum_prod_type]
  refine Finset.sum_congr rfl fun c _ => Finset.sum_congr rfl fun e _ => ?_
  show g (e.val + b * c.val) = g (b * c.val + e.val)
  rw [Nat.add_comm]

end Cert.QLinear

end
-- ==== Proof.Body.lean ====
/-
  The three values the kernel body stores, each read at one entry, over the extended reals.

  A body run keeps a [1024, 512] accumulator. With the point's blocks X : [1024, 1024] of the activations,
  Q : [512, 1024] of the integer weights, and the columns Z, S : [512, 1] of zero points and scales,
    * the reset stores the zero block;
    * every point then stores  acc + X · Wᵀ  where  W[q, e] = (Q[q, e] - Z[q, 0]) · S[q, 0]:
      at entry (p, q) that is  acc[p, q] + ∑ e < 1024, X[p, e] · W[q, e]
      (the narrowing of both factors to a shorter float format is the identity on the extended reals, and the
      matrix unit's product into a zero accumulator is the plain sum over the contracted axis);
    * the last point of a run stores  acc + B  with the bias row B : [1, 512] repeated down the rows:
      at (p, q) that is  acc[p, q] + B[0, q].
-/
import proofs.«138486_j48086453846078_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.QLinear.Body

open Cert.KernelIdeal Cert.KernelIdeal.Gen Idealize.ShloMosaic Idealize.ShloMosaic.ValueIdx

/-! ## The matrix product's operand indices: output entry (p, q) and contraction index e read X at (p, e), W at (q, e) -/

theorem lhs_axis0 (i : S1024x512.Idx) (k : dot_S1024x1024_S512x1024_S1024x512_1_1_0_0_n_n.contr.Idx) :
    (dot_S1024x1024_S512x1024_S1024x512_1_1_0_0_n_n.lhsIdx i k 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl

theorem lhs_axis1 (i : S1024x512.Idx) (k : dot_S1024x1024_S512x1024_S1024x512_1_1_0_0_n_n.contr.Idx) :
    (dot_S1024x1024_S512x1024_S1024x512_1_1_0_0_n_n.lhsIdx i k 1).val = (k ⟨0, by decide⟩).val :=
  dot_S1024x1024_S512x1024_S1024x512_1_1_0_0_n_n.lhsIdx_val_of_single rfl i k

theorem rhs_axis0 (i : S1024x512.Idx) (k : dot_S1024x1024_S512x1024_S1024x512_1_1_0_0_n_n.contr.Idx) :
    (dot_S1024x1024_S512x1024_S1024x512_1_1_0_0_n_n.rhsIdx i k 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl

theorem rhs_axis1 (i : S1024x512.Idx) (k : dot_S1024x1024_S512x1024_S1024x512_1_1_0_0_n_n.contr.Idx) :
    (dot_S1024x1024_S512x1024_S1024x512_1_1_0_0_n_n.rhsIdx i k 1).val = (k ⟨0, by decide⟩).val :=
  dot_S1024x1024_S512x1024_S1024x512_1_1_0_0_n_n.rhsIdx_val_of_single rfl i k

/-- The product of X : [1024, 1024] and W : [512, 1024] along their second axes, into a zero accumulator, at entry
    (p, q): the sum over e of X[p, e] · W[q, e]. -/
theorem product_apply (X : FVec Ideal S1024x1024 .bf16) (W : FVec Ideal S512x1024 .bf16) (p : Fin 1024) (q : Fin 512) :
    FloatOps.matmul dot_S1024x1024_S512x1024_S1024x512_1_1_0_0_n_n none X W (constant S1024x512 .f32 0x00000000#32) (ix2 p q)
      = ∑ e : Fin 1024, X (ix2 p e) * W (ix2 q e) := by
  rw [Ideal.matmul_constant_zero_apply,
    ← Equiv.sum_comp (contrEquiv1 dot_S1024x1024_S512x1024_S1024x512_1_1_0_0_n_n 1024 rfl rfl).symm]
  refine Finset.sum_congr rfl fun e _ => ?_
  have he := contrEquiv1_symm_val dot_S1024x1024_S512x1024_S1024x512_1_1_0_0_n_n 1024 rfl rfl e
  have el : dot_S1024x1024_S512x1024_S1024x512_1_1_0_0_n_n.lhsIdx (ix2 p q)
      ((contrEquiv1 dot_S1024x1024_S512x1024_S1024x512_1_1_0_0_n_n 1024 rfl rfl).symm e) = ix2 p e :=
    funext fun a => Fin.ext (by
      match a with
      | ⟨0, _⟩ => exact lhs_axis0 _ _
      | ⟨1, _⟩ => exact (lhs_axis1 _ _).trans he)
  have er : dot_S1024x1024_S512x1024_S1024x512_1_1_0_0_n_n.rhsIdx (ix2 p q)
      ((contrEquiv1 dot_S1024x1024_S512x1024_S1024x512_1_1_0_0_n_n 1024 rfl rfl).symm e) = ix2 q e :=
    funext fun a => Fin.ext (by
      match a with
      | ⟨0, _⟩ => exact rhs_axis0 _ _
      | ⟨1, _⟩ => exact (rhs_axis1 _ _).trans he)
  rw [el, er]

/-- A column [512, 1] repeated along the second axis to [512, 1024], at (q, e): the column's entry (q, 0). -/
theorem column_apply (v : FVec Ideal S512x1 .f32) (q : Fin 512) (e : Fin 1024) :
    broadcastTo S512x1024 v broadcasts_S512x1_S512x1024 (ix2 q e) = v (ix2 q 0) :=
  broadcastTo_apply v broadcasts_S512x1_S512x1024 (ix2 q e) (ix2 q 0) (fun a => by
    match a with
    | ⟨0, _⟩ => show q.val = if (512 : Nat) = 1 then 0 else q.val; rw [if_neg (by decide)]
    | ⟨1, _⟩ => show 0 = if (1 : Nat) = 1 then 0 else e.val; rw [if_pos rfl])

/-- A row [1, 512] repeated down the first axis to [1024, 512], at (p, q): the row's entry (0, q). -/
theorem row_apply (v : FVec Ideal S1x512 .f32) (p : Fin 1024) (q : Fin 512) :
    broadcastTo S1024x512 v broadcasts_S1x512_S1024x512 (ix2 p q) = v (ix2 0 q) :=
  broadcastTo_apply v broadcasts_S1x512_S1024x512 (ix2 p q) (ix2 0 q) (fun a => by
    match a with
    | ⟨0, _⟩ => show 0 = if (1 : Nat) = 1 then 0 else p.val; rw [if_pos rfl]
    | ⟨1, _⟩ => show q.val = if (512 : Nat) = 1 then 0 else q.val; rw [if_neg (by decide)])

/-! ## The three stored values -/

/-- The reset's block is zero everywhere. -/
theorem reset_apply (j : S1024x512.Idx) : (k0_pay1 (F := Ideal)) j = 0 := by
  unfold k0_pay1
  rw [shapeCast_self]
  exact Ideal.ofBits_zero_f32

/-- One point's partial product at block entry (p, q): the sum over the point's 1024 contraction indices of the
    activation times the dequantized weight. -/
def chunk (Q : Vec Ideal S512x1024 .i32) (Z S : FVec Ideal S512x1 .f32) (X : FVec Ideal S1024x1024 .f32)
    (p : Fin 1024) (q : Fin 512) : EReal :=
  ∑ e : Fin 1024, X (ix2 p e) * (((((Q (ix2 q e)).toInt : ℝ) : EReal) - Z (ix2 q 0)) * S (ix2 q 0))

/-- The accumulating store at entry (p, q): the accumulator there plus the point's partial product. -/
theorem step_apply (Q : Vec Ideal S512x1024 .i32) (Z S : FVec Ideal S512x1 .f32) (X : FVec Ideal S1024x1024 .f32)
    (acc : FVec Ideal S1024x512 .f32) (p : Fin 1024) (q : Fin 512) :
    k0_pay2 (F := Ideal) Q Z S X acc (ix2 p q) = acc (ix2 p q) + chunk Q Z S X p q := by
  unfold k0_pay2 chunk
  simp only [shapeCast_self]
  refine (congrArg (acc (ix2 p q) + ·) (product_apply _ _ p q)).trans ?_
  refine congrArg (acc (ix2 p q) + ·) (Finset.sum_congr rfl fun e _ => ?_)
  show X (ix2 p e) * (((((Q (ix2 q e)).toInt : ℝ) : EReal) - broadcastTo S512x1024 Z broadcasts_S512x1_S512x1024 (ix2 q e))
      * broadcastTo S512x1024 S broadcasts_S512x1_S512x1024 (ix2 q e)) = _
  rw [column_apply Z q e, column_apply S q e]

/-- The closing store at entry (p, q): the accumulator there plus the bias of column q. -/
theorem close_apply (acc : FVec Ideal S1024x512 .f32) (B : FVec Ideal S1x512 .f32) (p : Fin 1024) (q : Fin 512) :
    k0_pay3 (F := Ideal) acc B (ix2 p q) = acc (ix2 p q) + B (ix2 0 q) := by
  unfold k0_pay3
  simp only [shapeCast_self]
  exact congrArg (acc (ix2 p q) + ·) (row_apply B p q)

end Cert.QLinear.Body

end
-- ==== Proof.Pieces.lean ====
/-
  What one body run leaves behind, case by case, as the body's stored values.

  The body has three control cases over the contraction coordinate k of the grid point (i, j, k):
    first  (k = 0): store the zero block into the accumulator, then store  step(zero)  over it;
    middle (0 < k < 3): store  step(acc)  over the accumulator  acc  the point before left;
    last   (k = 3): store  step(acc)  over the accumulator, then store  close(step(acc))  into the output block.
  Here  step  is the accumulating store's value (`k0_pay2` of the point's weight, zero-point, scale and activation
  blocks and the accumulator) and  close  adds the bias row (`k0_pay3`). Each buffer is stored whole, so what a
  case leaves in it is its last store's value, and a load between two stores reads the earlier store's value.
  All of this holds at every float instance.
-/
import proofs.«138486_j48086453846078_1_alg».proof.Proof.Gen.KernelIdeal.Frame
import Idealize.ShloMosaic.Lib.Pipeline.Value
import Idealize.ShloMosaic.Lib.Tactic

noncomputable section

namespace Cert.QLinear.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First case: the accumulator ends at the step over the zero block. -/
theorem first_acc (c : Dev nD) (i : grid0.Coords) (a3 : Memref sig .tc .vmem S1024x1024 .f32) (h3 : a3.IsWhole) (a4 : Memref sig .tc .vmem S512x1024 .i32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : cond0_0 i) (hc1 : ¬cond0_1 i)
    (x0 : Vec F S1024x1024 .f32) (x1 : Vec F S512x1024 .i32) (x2 : Vec F S512x1 .f32) (x3 : Vec F S512x1 .f32) (x4 : Vec F S1x512 .f32) :
    sout0_A_0 c i a3 h3 a4 h4 a5 h5 a6 h6 a7 h7 a8 h8 a9 h9 hc0 hc1 x0 x1 x2 x3 x4 = k0_pay2 x1 x3 x2 x0 (k0_pay1 (F := F)) := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x512) hz, View.readCov_unit_zero (S := S1024x512) _ hz]
  simp only [View.readAt_eq_ld, h3.read_unread, h4.read_unread, h5.read_unread, h6.read_unread,
    View.ld_unit_zero (S := S1024x1024) hz, View.ld_unit_zero (S := S512x1024) hz, View.ld_unit_zero (S := S512x1) hz]

/-- Middle case: the accumulator ends at the step over what the point before left. -/
theorem middle_acc (c : Dev nD) (i : grid0.Coords) (a3 : Memref sig .tc .vmem S1024x1024 .f32) (h3 : a3.IsWhole) (a4 : Memref sig .tc .vmem S512x1024 .i32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : ¬cond0_1 i)
    (x0 : Vec F S1024x1024 .f32) (x1 : Vec F S512x1024 .i32) (x2 : Vec F S512x1 .f32) (x3 : Vec F S512x1 .f32) (x4 : Vec F S1x512 .f32) (xs0 : Vec F S1024x512 .f32) :
    sout0_B_0 c i a3 h3 a4 h4 a5 h5 a6 h6 a7 h7 a8 h8 a9 h9 hc0 hc1 x0 x1 x2 x3 x4 xs0 = k0_pay2 x1 x3 x2 x0 xs0 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  sl_unfold_words
  rw [View.canon_unit_zero hz]
  simp only [View.readAt_eq_ld, h3.read_unread, h4.read_unread, h5.read_unread, h6.read_unread, h9.read_unread,
    View.ld_unit_zero (S := S1024x1024) hz, View.ld_unit_zero (S := S512x1024) hz, View.ld_unit_zero (S := S512x1) hz,
    View.ld_unit_zero (S := S1024x512) hz]

/-- Last case: the accumulator ends at the step over what the point before left, -/
theorem last_acc (c : Dev nD) (i : grid0.Coords) (a3 : Memref sig .tc .vmem S1024x1024 .f32) (h3 : a3.IsWhole) (a4 : Memref sig .tc .vmem S512x1024 .i32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : cond0_1 i)
    (x0 : Vec F S1024x1024 .f32) (x1 : Vec F S512x1024 .i32) (x2 : Vec F S512x1 .f32) (x3 : Vec F S512x1 .f32) (x4 : Vec F S1x512 .f32) (xs0 : Vec F S1024x512 .f32) :
    sout0_C_0 c i a3 h3 a4 h4 a5 h5 a6 h6 a7 h7 a8 h8 a9 h9 hc0 hc1 x0 x1 x2 x3 x4 xs0 = k0_pay2 x1 x3 x2 x0 xs0 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h3.read_unread, h4.read_unread, h5.read_unread, h6.read_unread, h9.read_unread,
    View.ld_unit_zero (S := S1024x1024) hz, View.ld_unit_zero (S := S512x1024) hz, View.ld_unit_zero (S := S512x1) hz,
    View.ld_unit_zero (S := S1024x512) hz]

/-- and the output block at that accumulator plus the bias row. -/
theorem last_out (c : Dev nD) (i : grid0.Coords) (a3 : Memref sig .tc .vmem S1024x1024 .f32) (h3 : a3.IsWhole) (a4 : Memref sig .tc .vmem S512x1024 .i32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : cond0_1 i)
    (x0 : Vec F S1024x1024 .f32) (x1 : Vec F S512x1024 .i32) (x2 : Vec F S512x1 .f32) (x3 : Vec F S512x1 .f32) (x4 : Vec F S1x512 .f32) (xs0 : Vec F S1024x512 .f32) :
    out0_C_5 c i a3 h3 a4 h4 a5 h5 a6 h6 a7 h7 a8 h8 a9 h9 hc0 hc1 x0 x1 x2 x3 x4 xs0 = k0_pay3 (k0_pay2 x1 x3 x2 x0 xs0) x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h3.read_unread, h4.read_unread, h5.read_unread, h6.read_unread, h7.read_unread, h9.read_unread,
    View.readCov_unit_zero (S := S1024x512) _ hz,
    View.ld_unit_zero (S := S1024x1024) hz, View.ld_unit_zero (S := S512x1024) hz, View.ld_unit_zero (S := S512x1) hz,
    View.ld_unit_zero (S := S1x512) hz, View.ld_unit_zero (S := S1024x512) hz]

end Cert.QLinear.Pieces

end
-- ==== Proof.Blocks.lean ====
/-
  The blocks a grid point's body is given, read at one entry, as entries of the argument arrays.

  The grid is 8 × 8 × 4: point number t (counted with the last coordinate fastest) is the triple
  (i, j, k) = (t / 32, t / 4 % 8, t % 4). At that point the body is given
    rows 1024·i … of x and columns 1024·k … of it            (a [1024, 1024] block),
    rows 512·j … of the integer weights and columns 1024·k … (a [512, 1024] block),
    rows 512·j … of the scale and zero-point columns          ([512, 1] blocks),
    columns 512·j … of the bias row                            (a [1, 512] block),
  and its output block is rows 1024·i …, columns 512·j … of the result. The scale and zero-point columns and the bias
  row are the argument vectors re-laid by the host as [4096, 1] and [1, 4096] before the call, with the same entries
  in the same order.
-/
import proofs.«138486_j48086453846078_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.QLinear.Blocks

open Cert.KernelIdeal Cert.KernelIdeal.Gen Idealize.ShloMosaic Idealize.ShloMosaic.TcCoe Idealize.ShloMosaic.ValueIdx
open Idealize.ShloMosaic.StableHlo Idealize.SL.Sem

variable {F : FTy → Type} [FloatOps F]
variable (m : (ℓ : Loc nD τ sig) → Buf (Elt F) ℓ)

/-- Every window's block index at point t, from t's three coordinates: decided over the 256 points. -/
theorem index_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = 0
    ∧ win0_3.index t (0 : Fin 2) = t.val / 4 % 8 ∧ win0_3.index t (1 : Fin 2) = 0
    ∧ win0_4.index t (0 : Fin 2) = 0 ∧ win0_4.index t (1 : Fin 2) = t.val / 4 % 8
    ∧ win0_5.index t (0 : Fin 2) = t.val / 32 ∧ win0_5.index t (1 : Fin 2) = t.val / 4 % 8 :=
  (by decide +kernel : ∀ t : Fin grid0.N, _)

/-- A vector [a] re-laid as a column [a, 1] has, at (n, 0), the vector's entry n. -/
theorem column_of_vector {α : Type} {a : ℕ} (v : (⟨1, ![a]⟩ : Shape).Idx → α) (h : (⟨1, ![a]⟩ : Shape).ShapeCasts ⟨2, ![a, 1]⟩)
    (n : Fin a) (u : Fin 1) : shapeCast ⟨2, ![a, 1]⟩ v h (ix2 n u) = v (ix1 n) :=
  shapeCast_apply v h _ _ (by
    have hu : u.val = 0 := by omega
    rw [Shape.rowMajor_val_two, Shape.rowMajor_val_one]
    show n.val = n.val * 1 + u.val
    rw [hu, Nat.mul_one, Nat.add_zero])

/-- The scale column the call is given is the scale vector re-laid. -/
theorem scale_column (c : Dev nD) :
    (V m c main_v0 : S4096x1.Idx → Elt F .f32) = shapeCast S4096x1 (m ((c : Thread nD τ).loc main_arg2)) shapeCasts_S4096_S4096x1 := by
  dsimp only [Gen.V, Gen.hostOps0]; after_results; rfl

/-- The zero-point column likewise. -/
theorem zero_column (c : Dev nD) :
    (V m c main_v1 : S4096x1.Idx → Elt F .f32) = shapeCast S4096x1 (m ((c : Thread nD τ).loc main_arg3)) shapeCasts_S4096_S4096x1 := by
  dsimp only [Gen.V, Gen.hostOps0]; after_results; rfl

/-- The bias row likewise. -/
theorem bias_row (c : Dev nD) :
    (V m c main_v2 : S1x4096.Idx → Elt F .f32) = shapeCast S1x4096 (m ((c : Thread nD τ).loc main_arg4)) shapeCasts_S4096_S1x4096 := by
  dsimp only [Gen.V, Gen.hostOps0]; after_results; rfl

/-- The activation block at point t, entry (p, e): x at (1024·(t / 32) + p, 1024·(t % 4) + e). -/
theorem x_block (c : Dev nD) (t : Fin cfg0.N) (p e : Fin 1024) (r : Fin 8192) (k : Fin 4096)
    (hr : r.val = 1024 * (t.val / 32) + p.val) (hk : k.val = 1024 * (t.val % 4) + e.val) :
    (iblk m c 0 t : Vec F S1024x1024 .f32) (ix2 p e) = m ((c : Thread nD τ).loc main_arg0) (ix2 r k) := by
  obtain ⟨e0, e1, -⟩ := index_facts t
  unfold iblk
  rw [View.read_apply]
  show V m c main_arg0 (((cfg0.win 0).blk t).view.emb (ix2 p e)) = _
  rw [V_main_arg0]
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * e.val = k.val; omega

/-- The weight block at point t, entry (q, e): the integer weights at (512·(t / 4 % 8) + q, 1024·(t % 4) + e). -/
theorem q_block (c : Dev nD) (t : Fin cfg0.N) (q : Fin 512) (e : Fin 1024) (n k : Fin 4096)
    (hn : n.val = 512 * (t.val / 4 % 8) + q.val) (hk : k.val = 1024 * (t.val % 4) + e.val) :
    (iblk m c 1 t : Vec F S512x1024 .i32) (ix2 q e) = m ((c : Thread nD τ).loc main_arg1) (ix2 n k) := by
  obtain ⟨-, -, e0, e1, -⟩ := index_facts t
  unfold iblk
  rw [View.read_apply]
  show V m c main_arg1 (((cfg0.win 1).blk t).view.emb (ix2 q e)) = _
  rw [V_main_arg1]
  refine congrArg _ (funext fun a => Fin.ext ?_)
  match a with
  | ⟨0, _⟩ => show win0_1.index t (0 : Fin 2) * 512 + 1 * q.val = n.val; omega
  | ⟨1, _⟩ => show win0_1.index t (1 : Fin 2) * 1024 + 1 * e.val = k.val; omega

/-- The scale block at point t, entry (q, 0): the scale of output feature 512·(t / 4 % 8) + q. -/
theorem s_block (c : Dev nD) (t : Fin cfg0.N) (q : Fin 512) (n : Fin 4096) (hn : n.val = 512 * (t.val / 4 % 8) + q.val) :
    (iblk m c 2 t : Vec F S512x1 .f32) (ix2 q 0) = m ((c : Thread nD τ).loc main_arg2) (ix1 n) := by
  obtain ⟨-, -, -, -, e0, e1, -⟩ := index_facts t
  unfold iblk
  rw [View.read_apply]
  show V m c main_v0 (((cfg0.win 2).blk t).view.emb (ix2 q 0)) = _
  rw [scale_column m c, ← column_of_vector (m ((c : Thread nD τ).loc main_arg2)) shapeCasts_S4096_S4096x1 n 0]
  refine congrArg _ (funext fun a => Fin.ext ?_)
  match a with
  | ⟨0, _⟩ => show win0_2.index t (0 : Fin 2) * 512 + 1 * q.val = n.val; omega
  | ⟨1, _⟩ => show win0_2.index t (1 : Fin 2) * 1 + 1 * 0 = 0; omega

/-- The zero-point block at point t, entry (q, 0): the zero point of output feature 512·(t / 4 % 8) + q. -/
theorem z_block (c : Dev nD) (t : Fin cfg0.N) (q : Fin 512) (n : Fin 4096) (hn : n.val = 512 * (t.val / 4 % 8) + q.val) :
    (iblk m c 3 t : Vec F S512x1 .f32) (ix2 q 0) = m ((c : Thread nD τ).loc main_arg3) (ix1 n) := by
  obtain ⟨-, -, -, -, -, -, e0, e1, -⟩ := index_facts t
  unfold iblk
  rw [View.read_apply]
  show V m c main_v1 (((cfg0.win 3).blk t).view.emb (ix2 q 0)) = _
  rw [zero_column m c, ← column_of_vector (m ((c : Thread nD τ).loc main_arg3)) shapeCasts_S4096_S4096x1 n 0]
  refine congrArg _ (funext fun a => Fin.ext ?_)
  match a with
  | ⟨0, _⟩ => show win0_3.index t (0 : Fin 2) * 512 + 1 * q.val = n.val; omega
  | ⟨1, _⟩ => show win0_3.index t (1 : Fin 2) * 1 + 1 * 0 = 0; omega

/-- The bias block at point t, entry (0, q): the bias of output feature 512·(t / 4 % 8) + q. -/
theorem b_block (c : Dev nD) (t : Fin cfg0.N) (q : Fin 512) (n : Fin 4096) (hn : n.val = 512 * (t.val / 4 % 8) + q.val) :
    (iblk m c 4 t : Vec F S1x512 .f32) (ix2 0 q) = m ((c : Thread nD τ).loc main_arg4) (ix1 n) := by
  obtain ⟨-, -, -, -, -, -, -, -, e0, e1, -⟩ := index_facts t
  unfold iblk
  rw [View.read_apply]
  show V m c main_v2 (((cfg0.win 4).blk t).view.emb (ix2 0 q)) = _
  rw [bias_row m c, ← shapeCast_a_1a_apply (m ((c : Thread nD τ).loc main_arg4)) shapeCasts_S4096_S1x4096 0 n]
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = n.val; omega

end Cert.QLinear.Blocks

end
-- ==== Proof.Fold.lean ====
/-
  The accumulator after each grid point, and the value of a finished output block.

  The 256 grid points fall into 64 runs of 4 consecutive points, one run per output block (i, j); within a run the
  contraction coordinate k goes 0, 1, 2, 3. The first point of a run resets the accumulator and adds its partial
  product, every later point adds its own, so after the point at offset k of the run that starts at point b the
  accumulator holds, at each block entry,

      0 + ∑ s ≤ k, (partial product of point b + s).

  Point b + s's partial product at block entry (p, q) is the sum over e < 1024 of the layer's contraction terms
  number 1024·s + e at the result entry (1024·i + p, 512·j + q). Four such sums are the whole contraction over
  4096 indices cut into consecutive chunks; adding the bias gives the layer's entry.
-/
import proofs.«138486_j48086453846078_1_alg».proof.Proof.Gen.KernelIdeal.Value
import proofs.«138486_j48086453846078_1_alg».proof.Proof.Spec
import proofs.«138486_j48086453846078_1_alg».proof.Proof.Body
import proofs.«138486_j48086453846078_1_alg».proof.Proof.Pieces
import proofs.«138486_j48086453846078_1_alg».proof.Proof.Blocks
import Idealize.ShloMosaic.Lib.Pipeline.Value

noncomputable section

namespace Cert.QLinear.Fold

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- Point n's partial product at a block entry (zero past the grid, where it is never used). -/
def part (c : Dev nD) (n : ℕ) (i : S1024x512.Idx) : EReal :=
  if h : n < cfg0.N then
    Body.chunk (iblk m c 1 ⟨n, h⟩) (iblk m c 3 ⟨n, h⟩) (iblk m c 2 ⟨n, h⟩) (iblk m c 0 ⟨n, h⟩) (i 0) (i 1)
  else 0

/-- A run's first point leaves zero plus its partial product. -/
theorem reset_step (c : Dev nD) (b : ℕ) (hb : b < cfg0.N) (h0 : b % 4 = 0) (i : S1024x512.Idx) :
    Value.scAt0_0 m c b hb (VS0_0.read (Elt Ideal) VS0_0.junk) i = 0 + part m c b i := by
  have h1 : ¬b % 4 = 3 := by omega
  obtain ⟨p, q, rfl⟩ : ∃ (p : Fin 1024) (q : Fin 512), i = ix2 p q := ⟨i 0, i 1, eq_ix2 i⟩
  unfold Value.scAt0_0
  rw [dif_pos h0, dif_neg h1, Pieces.first_acc]
  refine (Body.step_apply (iblk m c 1 ⟨b, hb⟩) (iblk m c 3 ⟨b, hb⟩) (iblk m c 2 ⟨b, hb⟩) (iblk m c 0 ⟨b, hb⟩)
    (k0_pay1 (F := Ideal)) p q).trans ?_
  rw [Body.reset_apply]
  unfold part
  rw [dif_pos hb]

/-- Every later point of a run adds its partial product to what the point before left. -/
theorem later_step (c : Dev nD) (n : ℕ) (hn : n < cfg0.N) (h0 : ¬n % 4 = 0) (acc : Vec Ideal S1024x512 .f32)
    (i : S1024x512.Idx) :
    Value.scAt0_0 m c n hn acc i = acc i + part m c n i := by
  obtain ⟨p, q, rfl⟩ : ∃ (p : Fin 1024) (q : Fin 512), i = ix2 p q := ⟨i 0, i 1, eq_ix2 i⟩
  have hpart : part m c n (ix2 p q)
      = Body.chunk (iblk m c 1 ⟨n, hn⟩) (iblk m c 3 ⟨n, hn⟩) (iblk m c 2 ⟨n, hn⟩) (iblk m c 0 ⟨n, hn⟩) p q := by
    unfold part
    rw [dif_pos hn]
  unfold Value.scAt0_0
  rw [dif_neg h0]
  by_cases h1 : n % 4 = 3
  · rw [dif_pos h1, Pieces.last_acc, hpart]
    exact Body.step_apply (iblk m c 1 ⟨n, hn⟩) (iblk m c 3 ⟨n, hn⟩) (iblk m c 2 ⟨n, hn⟩) (iblk m c 0 ⟨n, hn⟩) acc p q
  · rw [dif_neg h1, Pieces.middle_acc, hpart]
    exact Body.step_apply (iblk m c 1 ⟨n, hn⟩) (iblk m c 3 ⟨n, hn⟩) (iblk m c 2 ⟨n, hn⟩) (iblk m c 0 ⟨n, hn⟩) acc p q

/-- The accumulator after point t: zero plus the partial products of its run's points up to t. -/
theorem acc_apply (c : Dev nD) (t : Fin cfg0.N) (i : S1024x512.Idx) :
    (outsAt0 m c t.val t.isLt).2 i = 0 + ∑ s ∈ Finset.range (t.val % 4 + 1), part m c (4 * (t.val / 4) + s) i := by
  rw [Value.soutsAt0_0_eq m c t]
  exact Pipeline.accAt_add_apply (fun n h => Value.scAt0_0 m c n h (VS0_0.read (Elt Ideal) VS0_0.junk))
    (Value.scAt0_0 m c) (fun _ => (0 : EReal)) (part m c) (4 * (t.val / 4)) 3
    (fun h i => reset_step m c _ h (by omega) i)
    (fun n h acc i hlt hle => later_step m c n h (by omega) acc i)
    (t.val % 4) (by omega) _ i

/-- The contraction term number k of the layer at result entry (r, n), as a function of every natural number
    (zero from 4096 on). -/
def gterm (c : Dev nD) (r : Fin 8192) (n : Fin 4096) (k : ℕ) : EReal :=
  if h : k < 4096 then
    Cert.QLinear.term (m ((c : Thread nD τ).loc main_arg0)) (m ((c : Thread nD τ).loc main_arg1))
      (m ((c : Thread nD τ).loc main_arg2)) (m ((c : Thread nD τ).loc main_arg3)) r n ⟨k, h⟩
  else 0

/-- Point u's partial product at block entry (p, q) is the chunk number u % 4 of the contraction at the result entry
    the block entry lies at. -/
theorem part_eq (c : Dev nD) (u : ℕ) (hu : u < cfg0.N) (p : Fin 1024) (q : Fin 512) (r : Fin 8192) (n : Fin 4096)
    (hr : r.val = 1024 * (u / 32) + p.val) (hn : n.val = 512 * (u / 4 % 8) + q.val) :
    part m c u (ix2 p q) = ∑ e : Fin 1024, gterm m c r n (1024 * (u % 4) + e.val) := by
  unfold part
  rw [dif_pos hu]
  show Body.chunk (iblk m c 1 ⟨u, hu⟩) (iblk m c 3 ⟨u, hu⟩) (iblk m c 2 ⟨u, hu⟩) (iblk m c 0 ⟨u, hu⟩) p q = _
  unfold Body.chunk
  refine Finset.sum_congr rfl fun e _ => ?_
  have hk : 1024 * (u % 4) + e.val < 4096 := by have := e.isLt; omega
  unfold gterm
  rw [dif_pos hk]
  unfold Cert.QLinear.term Cert.QLinear.deq
  rw [Blocks.x_block m c ⟨u, hu⟩ p e r ⟨_, hk⟩ hr rfl, Blocks.q_block m c ⟨u, hu⟩ q e n ⟨_, hk⟩ hn rfl,
    Blocks.z_block m c ⟨u, hu⟩ q n hn, Blocks.s_block m c ⟨u, hu⟩ q n hn]

/-- A finished block: at the last point t of a run, the accumulator's four partial products plus the bias block, at
    block entry (p, q), are the layer at the result entry (1024·(t / 32) + p, 512·(t / 4 % 8) + q). -/
theorem block_value (c : Dev nD) (t : Fin cfg0.N) (h3 : t.val % 4 = 3) (p : Fin 1024) (q : Fin 512)
    (r : Fin 8192) (n : Fin 4096) (hr : r.val = 1024 * (t.val / 32) + p.val) (hn : n.val = 512 * (t.val / 4 % 8) + q.val) :
    (0 + ∑ s ∈ Finset.range (t.val % 4 + 1), part m c (4 * (t.val / 4) + s) (ix2 p q))
        + (iblk m c 4 t : Vec Ideal S1x512 .f32) (ix2 0 q)
      = Cert.QLinear.layer (m ((c : Thread nD τ).loc main_arg0)) (m ((c : Thread nD τ).loc main_arg1))
          (m ((c : Thread nD τ).loc main_arg2)) (m ((c : Thread nD τ).loc main_arg3)) (m ((c : Thread nD τ).loc main_arg4))
          (ix2 r n) := by
  have hN : t.val < 256 := lt_of_lt_of_eq t.isLt N_0
  have hcN : cfg0.N = 256 := N_0
  rw [zero_add, h3, Blocks.b_block m c t q n hn]
  unfold Cert.QLinear.layer
  refine congrArg₂ (· + ·) ?_ rfl
  have hsum : ∑ s ∈ Finset.range (3 + 1), part m c (4 * (t.val / 4) + s) (ix2 p q)
      = ∑ s ∈ Finset.range 4, ∑ e : Fin 1024, gterm m c r n (1024 * s + e.val) := by
    refine Finset.sum_congr rfl fun s hs => ?_
    have hs4 : s < 4 := Finset.mem_range.mp hs
    have hu : 4 * (t.val / 4) + s < cfg0.N := lt_of_lt_of_eq (show 4 * (t.val / 4) + s < 256 by omega) hcN.symm
    rw [part_eq m c (4 * (t.val / 4) + s) hu p q r n (by omega) (by omega)]
    have hmod : (4 * (t.val / 4) + s) % 4 = s := by omega
    rw [hmod]
  rw [hsum, ← Cert.QLinear.sum_chunks 4 1024 (gterm m c r n)]
  show ∑ k : Fin 4096, gterm m c r n k.val = _
  refine Finset.sum_congr rfl fun k _ => ?_
  unfold gterm
  rw [dif_pos k.isLt]

end Cert.QLinear.Fold

end
-- ==== Proof.Final.lean ====
/-
  The result array after the run is the layer of the argument arrays.

  The output's block (i, j) is written back once, at the last point of its run (the points with k = 3). What is
  written there is the output block of that point: the accumulator after the point plus the bias row, which is the
  layer read through the block (the fold module). The 64 blocks of 1024 × 512 entries tile the 8192 × 4096 result:
  entry (r, n) lies in block (r / 1024, n / 512), written back at point 4·(8·(r / 1024) + n / 512) + 3. So every entry
  of the result ends at the layer's value.
-/
import proofs.«138486_j48086453846078_1_alg».proof.Proof.Fold

noncomputable section

namespace Cert.QLinear.Final

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The layer of the argument arrays as launched, as contents of the result array. -/
abbrev result (c : Dev nD) : Buf (Elt Ideal) ((c : Thread nD τ).loc main_v3) :=
  Cert.QLinear.layer (m ((c : Thread nD τ).loc main_arg0)) (m ((c : Thread nD τ).loc main_arg1))
    (m ((c : Thread nD τ).loc main_arg2)) (m ((c : Thread nD τ).loc main_arg3)) (m ((c : Thread nD τ).loc main_arg4))

/-- At the last point of a run the accumulator is the step over what the point before left: the same value the
    output block adds the bias to. -/
theorem out_of_acc (c : Dev nD) (t : Fin cfg0.N) (h0 : ¬t.val % 4 = 0) (h3 : t.val % 4 = 3) :
    out0_C_5 c (grid0.coords t) (ms0_0 t) (hs0_0 t) (ms0_1 t) (hs0_1 t) (ms0_2 t) (hs0_2 t) (ms0_3 t) (hs0_3 t) (ms0_4 t) (hs0_4 t)
        (ms0_5 t) (hs0_5 t) scM0_0 (Memref.isWhole_whole _) (fun h => h0 ((hcond0_0 t).mp h)) ((hcond0_1 t).mpr h3)
        (iblk m c 0 t) (iblk m c 1 t) (iblk m c 2 t) (iblk m c 3 t) (iblk m c 4 t)
        (outsAt0 m c (t.val - 1) (Nat.lt_of_le_of_lt (Nat.sub_le _ _) t.isLt)).2
      = k0_pay3 (F := Ideal) (outsAt0 m c t.val t.isLt).2 (iblk m c 4 t) := by
  rw [Pieces.last_out, outsAt0_C m c t h0 h3]
  dsimp only
  rw [Pieces.last_acc]

/-- What a write-back writes is the layer read through the written block. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have h0 : ¬t.val % 4 = 0 := by omega
  have hN : t.val < 256 := lt_of_lt_of_eq t.isLt N_0
  obtain ⟨-, -, -, -, -, -, -, -, -, -, e0, e1⟩ := Blocks.index_facts t
  rw [Value.flushed5_C m c t h0 h3, out_of_acc m c t h0 h3]
  funext y
  obtain ⟨p, q, rfl⟩ : ∃ (p : Fin 1024) (q : Fin 512), y = ix2 p q := ⟨y 0, y 1, eq_ix2 y⟩
  rw [View.read_apply]
  show k0_pay3 (F := Ideal) (outsAt0 m c t.val t.isLt).2 (iblk m c 4 t) (ix2 p q)
    = result m c (((cfg0.win 5).blk t).view.emb (ix2 p q))
  refine (Body.close_apply (outsAt0 m c t.val t.isLt).2 (iblk m c 4 t) p q).trans ?_
  rw [Fold.acc_apply m c t (ix2 p q)]
  refine (Fold.block_value m c t h3 p q ⟨1024 * (t.val / 32) + p.val, by omega⟩ ⟨512 * (t.val / 4 % 8) + q.val, by omega⟩ rfl rfl).trans ?_
  refine congrArg (result m c) (funext fun a => Fin.ext ?_)
  match a with
  | ⟨0, _⟩ => show 1024 * (t.val / 32) + p.val = win0_5.index t (0 : Fin 2) * 1024 + 1 * p.val; omega
  | ⟨1, _⟩ => show 512 * (t.val / 4 % 8) + q.val = win0_5.index t (1 : Fin 2) * 512 + 1 * q.val; omega

/-- An entry of the result is in point t's block iff each coordinate is in the block's range on its axis. -/
theorem mem_block (t : Fin cfg0.N) (i : S8192x4096.Idx) :
    i ∈ ((cfg0.win 5).blk t).view.set
      ↔ ∀ a : Fin 2, win0_5.index t a * S1024x512.size a ≤ (i a).val ∧ (i a).val < win0_5.index t a * S1024x512.size a + S1024x512.size a := by
  show i ∈ ((View.whole main_v3).slice (win0_5.rect t)).set ↔ _
  rw [View.set_slice_whole, Rect.mem_set_unit]
  exact Iff.rfl

/-- Every entry of the result lies in the block some write-back writes. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hcN : cfg0.N = 256 := N_0
  let t : Fin cfg0.N := ⟨4 * (8 * ((i 0).val / 1024) + (i 1).val / 512) + 3,
    lt_of_lt_of_eq (show 4 * (8 * ((i 0).val / 1024) + (i 1).val / 512) + 3 < 256 by omega) hcN.symm⟩
  have ht : t.val = 4 * (8 * ((i 0).val / 1024) + (i 1).val / 512) + 3 := rfl
  obtain ⟨-, -, -, -, -, -, -, -, -, -, e0, e1⟩ := Blocks.index_facts t
  refine ⟨t, (flush0_5 t).mpr (by omega), ?_⟩
  rw [mem_block]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- The result array after the run. -/
theorem final (c : Dev nD) : (dats m 0 c).arrAt 5 cfg0.N = result m c :=
  (dats m 0 c).arrAt_eq_of_cover 5 (result m c) (flushed_eq m c) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.QLinear.Final

end
-- ==== Proof.Reference.lean ====
/-
  The reference computes the layer.

  Its result at entry i = (r, n) is the host's contraction of x's row r with row n of the dequantized weights, plus
  the bias of n. Read one operation at a time: the contraction is the sum over k < 4096 of x[r, k] times the weight at
  (n, k); that weight is (q[n, k] as a real, minus the zero point) times the scale, where the zero point and the scale
  reach (n, k) through two repetitions, first [4096] to a column [4096, 1], then along the second axis; the bias
  reaches (r, n) through a row [1, 4096] repeated down the first axis. So it is `layer`, term for term.
-/
import proofs.«138486_j48086453846078_1_alg».proof.Proof.Gen.ReferenceIdeal.Read
import proofs.«138486_j48086453846078_1_alg».proof.Proof.Spec

noncomputable section

namespace Cert.QLinear.Reference

open Cert.ReferenceIdeal Cert.ReferenceIdeal.Read Idealize.ShloMosaic Idealize.ShloMosaic.ValueIdx

/-- The reference's result, as a function of the five arguments, is the layer. -/
theorem result_eq_layer (x : (⟨S8192x4096, .f32⟩ : BufTy).Contents (Elt Ideal)) (q : (⟨S4096x4096, .i32⟩ : BufTy).Contents (Elt Ideal))
    (s z b : (⟨S4096, .f32⟩ : BufTy).Contents (Elt Ideal)) :
    val_main_v10 (F := Ideal) x q s z b = Cert.QLinear.layer x q s z b := by
  funext i
  rw [val_main_v10_apply, val_main_v7_apply, val_main_v9_apply, val_main_v8_apply]
  unfold Cert.QLinear.layer
  refine congrArg₂ (· + ·) (Finset.sum_congr rfl fun k _ => ?_) ?_
  · rw [val_main_v6_apply, val_main_v3_apply, val_main_v0_apply, val_main_v2_apply, val_main_v1_apply,
      val_main_v5_apply, val_main_v4_apply]
    unfold Cert.QLinear.term Cert.QLinear.deq
    have e0 : lidx_main_v7 i k = ix2 (i 0) k := funext fun a => by
      match a with
      | ⟨0, _⟩ => rfl
      | ⟨1, _⟩ => rfl
    have e1 : ridx_main_v7 i k = ix2 (i 1) k := funext fun a => by
      match a with
      | ⟨0, _⟩ => rfl
      | ⟨1, _⟩ => rfl
    have e2 : idx_main_v1 (idx_main_v2 (ridx_main_v7 i k)) = ix1 (i 1) := funext fun a => by
      match a with
      | ⟨0, _⟩ => rfl
    have e3 : idx_main_v4 (idx_main_v5 (ridx_main_v7 i k)) = ix1 (i 1) := funext fun a => by
      match a with
      | ⟨0, _⟩ => rfl
    rw [e2, e3, e0, e1]
    rfl
  · have e4 : idx_main_v8 (idx_main_v9 i) = ix1 (i 1) := funext fun a => by
      match a with
      | ⟨0, _⟩ => rfl
    exact congrArg b e4

end Cert.QLinear.Reference

end
-- ==== Proof.lean ====
/-
  A quantized linear layer, computed blockwise by the kernel and in one piece by the reference, is one function of its
  arguments over the extended reals.

  Arguments: activations x : [8192, 4096]; integer weights q : [4096, 4096], row n = output feature n; per-feature
  scale s, zero point z and bias b : [4096]. Both programs compute, at result entry (r, n),

      ( ∑ k < 4096,  x[r, k] · ((q[n, k] - z[n]) · s[n]) )  +  b[n]                                   (the layer).

  The reference does so directly: it dequantizes the whole weight matrix, contracts it with x and adds the bias.
  The kernel tiles the result into 8 × 8 blocks of 1024 × 512 entries and the contraction axis into 4 chunks of 1024;
  for each block it zeroes an accumulator, adds one chunk's partial product per grid point (dequantizing that
  chunk's weights on the way; narrowing both factors to a shorter float format, which is the identity on the
  extended reals), and after the fourth chunk writes accumulator plus bias to the block. The accumulator after a
  run's last point is  0 + P₀ + P₁ + P₂ + P₃  with Pₛ the partial sum over the contraction indices 1024·s …
  1024·s + 1023; four consecutive chunks of 1024 indices are the 4096 indices, so this is the whole contraction. Only
  re-indexing of a finite sum in a commutative additive monoid is used: the precondition (finite inputs) is never
  opened.

  The frames of the two kernel programs are the generated ones; the reference's frame is its generated run with the
  result dropped. The idealization rewrote nothing, so there is nothing to preserve.
-/
import proofs.«138486_j48086453846078_1_alg».proof.Defs
import proofs.«138486_j48086453846078_1_alg».proof.Proof.Gen.Kernel
import proofs.«138486_j48086453846078_1_alg».proof.Proof.Gen.Kernel.Frame
import proofs.«138486_j48086453846078_1_alg».proof.Proof.Gen.KernelIdeal
import proofs.«138486_j48086453846078_1_alg».proof.Proof.Gen.KernelIdeal.Frame
import proofs.«138486_j48086453846078_1_alg».proof.Proof.Gen.KernelIdeal.Value
import proofs.«138486_j48086453846078_1_alg».proof.Proof.Gen.ReferenceIdeal
import proofs.«138486_j48086453846078_1_alg».proof.Proof.Gen.ReferenceIdeal.Run
import proofs.«138486_j48086453846078_1_alg».proof.Proof.Gen.ReferenceIdeal.Read
import proofs.«138486_j48086453846078_1_alg».proof.Proof.Gen.Pre_finite_inputs
import proofs.«138486_j48086453846078_1_alg».proof.Proof.Final
import proofs.«138486_j48086453846078_1_alg».proof.Proof.Reference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the layer of those arguments in their result
    arrays: the kernel block by block, the reference in one piece. -/
theorem algebraic : Cert.algebraic_KernelIdeal_ReferenceIdeal := by
  intro m ρ m' ρ' _ hagree
  refine ⟨fun c => Cert.QLinear.Final.result m c, Cert.QLinear.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.QLinear.Reference.result_eq_layer,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
